-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2048x2048 : Shape := ⟨2, ![2048, 2048]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x64 .f32) (main_arg1 : FVec F S2048x2048 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S2048x64 : Shape := ⟨2, ![2048, 64]⟩
abbrev S2048x2048 : Shape := ⟨2, ![2048, 2048]⟩
abbrev S256x64 : Shape := ⟨2, ![256, 64]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S2048x64, .f32⟩
  | .local _ .vmem, ⟨0, _⟩ => ⟨S256x64, .f32⟩
  | .local _ .vmem, ⟨1, _⟩ => ⟨S256x64, .f32⟩
  | .local _ .vmem, ⟨2, _⟩ => ⟨S256x2048, .f32⟩
  | .local _ .vmem, ⟨3, _⟩ => ⟨S256x2048, .f32⟩
  | .local _ .vmem, ⟨4, _⟩ => ⟨S256x64, .f32⟩
  | .local _ .vmem, ⟨5, _⟩ => ⟨S256x64, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  inb_S256x64_S256x64_0_0 : ∀ a, (![0, 0] : Fin 2 → Nat) a + S256x64.size a ≤ S256x64.size a
  h_S256x64 : 0 < S256x64.numel
  broadcasts_S256x1_S256x64 : S256x1.Broadcasts S256x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .f32 = 32 ∨ (Rect.block (s := S2048x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S2048x64.size a
  hwx0_2 : ∀ i : grid0.Coords, EltTy.bits .f32 = 32 ∨ (Rect.block (s := S2048x64) S256x64.size (cc0_transform_2 i) (hinb0_2 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64 : Shape := ⟨2, ![2048, 64]⟩
abbrev S2048x2048 : Shape := ⟨2, ![2048, 2048]⟩
abbrev S2048x1x64 : Shape := ⟨3, ![2048, 1, 64]⟩
abbrev S2048x2048x1 : Shape := ⟨3, ![2048, 2048, 1]⟩
abbrev S2048x2048x64 : Shape := ⟨3, ![2048, 2048, 64]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x2048, .f32⟩
  | .hbm, ⟨2, _⟩ => ⟨S2048x1x64, .f32⟩
  | .hbm, ⟨3, _⟩ => ⟨S2048x2048x1, .f32⟩
  | .hbm, ⟨4, _⟩ => ⟨S2048x2048x64, .f32⟩
  | .hbm, ⟨5, _⟩ => ⟨S2048x2048x64, .f32⟩
  | .hbm, ⟨6, _⟩ => ⟨S2048x2048x64, .f32⟩
  | .hbm, ⟨7, _⟩ => ⟨S_, .f32⟩
  | .hbm, ⟨8, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S2048x64_S2048x1x64_0_2 : S2048x64.BroadcastsInDim S2048x1x64 (![0, 2] : Fin 2 → Fin S2048x1x64.rank)
  bcast_S2048x2048_S2048x2048x1_0_1 : S2048x2048.BroadcastsInDim S2048x2048x1 (![0, 1] : Fin 2 → Fin S2048x2048x1.rank)
  bcast_S2048x1x64_S2048x2048x64_0_1_2 : S2048x1x64.BroadcastsInDim S2048x2048x64 (![0, 1, 2] : Fin 3 → Fin S2048x2048x64.rank)
  bcast_S2048x2048x1_S2048x2048x64_0_1_2 : S2048x2048x1.BroadcastsInDim S2048x2048x64 (![0, 1, 2] : Fin 3 → Fin S2048x2048x64.rank)
  reducesTo_S2048x2048x64_S2048x64_d1 : S2048x2048x64.ReducesTo [1] S2048x64
  h_S_ : 0 < S_.numel

variable [Facts₀]

class Facts : Prop extends Facts₀ where

variable [Facts]
-- ==== Proof.SignedFactor.lean ====
/-
  The one law this certificate rests on, on the extended reals and free of any program.

  For a factor `x` and a finite nonempty family `g`, the largest of the products `x * g j` is
  `x` times the largest `g j` when `x` is nonnegative, and `x` times the SMALLEST `g j` when `x` is
  negative: multiplying by a nonnegative number keeps the order, multiplying by a negative one
  reverses it. Nothing is asked of the `g j` (they need not be zero or one, nor finite): the order
  of the extended reals is compatible with multiplication by a signed factor everywhere, with
  `0 * ⊥ = 0`, `x * ⊥ = ⊥` for `0 < x` and `x * ⊤ = ⊥` for `x < 0`.
  The maxima and minima are folds from `⊥` and from `⊤`, the shape in which a reduction reads.
-/
import Mathlib.Data.EReal.Inv
import Mathlib.Data.Finset.Fold

namespace Cert.SignedFactor

variable {ι : Type*}

/-- Multiplying on the left by a nonnegative extended real keeps the order. -/
theorem mul_left_mono {x : EReal} (hx : 0 ≤ x) : Monotone (fun y : EReal => x * y) :=
  fun _ _ h => mul_le_mul_of_nonneg_left h hx

/-- Multiplying on the left by a nonpositive extended real reverses the order. -/
theorem mul_left_anti {x : EReal} (hx : x ≤ 0) : Antitone (fun y : EReal => x * y) := by
  intro a b h
  show x * b ≤ x * a
  rw [mul_comm x b, mul_comm x a]
  exact EReal.mul_le_mul_of_nonpos_right h hx

/-- A positive factor goes through a maximum taken from `⊥`: it fixes `⊥` and keeps the order. -/
theorem pos_mul_fold_max (s : Finset ι) {x : EReal} (hx : 0 < x) (g : ι → EReal) :
    x * s.fold max ⊥ g = s.fold max ⊥ (fun j => x * g j) := by
  have h := Finset.fold_hom (s := s) (op := max) (op' := max) (b := (⊥ : EReal)) (f := g)
    (m := fun y => x * y) (fun _ _ => (mul_left_mono hx.le).map_max)
  simpa only [EReal.mul_bot_of_pos hx] using h.symm

/-- A negative factor turns a minimum taken from `⊤` into the maximum from `⊥`: it sends `⊤` to `⊥`
    and reverses the order. -/
theorem neg_mul_fold_min (s : Finset ι) {x : EReal} (hx : x < 0) (g : ι → EReal) :
    x * s.fold min ⊤ g = s.fold max ⊥ (fun j => x * g j) := by
  have h := Finset.fold_hom (s := s) (op := min) (op' := max) (b := (⊤ : EReal)) (f := g)
    (m := fun y => x * y) (fun _ _ => (mul_left_anti hx.le).map_min)
  simpa only [EReal.mul_top_of_neg hx] using h.symm

/-- With the factor zero every product is zero, and the maximum from `⊥` of a nonempty family of
    zeros is zero. -/
theorem zero_mul_fold_max (s : Finset ι) (hs : s.Nonempty) (g : ι → EReal) :
    s.fold max ⊥ (fun j => (0 : EReal) * g j) = 0 := by
  simp only [zero_mul]
  obtain ⟨j, hj⟩ := hs
  exact le_antisymm ((Finset.fold_max_le _).2 ⟨bot_le, fun _ _ => le_rfl⟩)
    ((Finset.le_fold_max _).2 (Or.inr ⟨j, hj, le_rfl⟩))

/-- THE LAW: over a nonempty family, the largest product `x * g j` is `x` times the largest `g j`
    for `0 ≤ x` and `x` times the smallest `g j` for `x < 0`. -/
theorem signed_factor_max (s : Finset ι) (hs : s.Nonempty) (x : EReal) (g : ι → EReal) :
    (if 0 ≤ x then x * s.fold max ⊥ g else x * s.fold min ⊤ g) = s.fold max ⊥ (fun j => x * g j) := by
  by_cases h : 0 ≤ x
  · rw [if_pos h]
    rcases h.eq_or_lt with h0 | hpos
    · subst h0
      rw [zero_mul, zero_mul_fold_max s hs g]
    · exact pos_mul_fold_max s hpos g
  · rw [if_neg h]
    exact neg_mul_fold_min s (not_le.1 h) g

end Cert.SignedFactor
-- ==== Proof.LibRowExtrema.lean ====
/-
  General lemmas for a row's extrema at the ideal values.

  A float `vector.multi_reduction <minimumf>` over ONE axis is, at each result index, the fold of
  `min` from the accumulator's value over that axis's coordinates — the result index with the
  coordinate put back on the reduced axis. It is the minimum's twin of the library's reading of a
  one-axis `<maximumf>` reduction and is proved the same way: the reduction folds over the set of
  source indices that drop to the result index, and that set is the image of the axis's coordinates
  under the insertion.
  The f32 accumulators such reductions start from: the pattern of `-∞` is the bottom of the extended
  reals and the pattern of `+∞` their top.
-/
import Idealize.ShloMosaic.PureOps.Ideal.Laws

namespace Idealize.ShloMosaic.Ideal

variable {φ : FTy}

/-- A float `vector.multi_reduction <minimumf>` over one axis, read at `Ideal`: the fold of `min`
    from the accumulator's value over that axis's coordinates (a row's minimum). -/
theorem multiReduction_minimumf_single {s t : Shape} {a : Fin s.rank} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]
  exact h.fold_filter_drop_single _ _ src j

/-- The f32 pattern of `-∞`, the accumulator a maximum starts from, is the bottom of the extended reals. -/
theorem ofBits_neg_inf_f32 : FloatOps.ofBits (F := Ideal) .f32 0xFF800000#32 = (⊥ : EReal) := by
  show Ideal.ofBits .f32 0xFF800000#32 = ⊥
  simp [Ideal.ofBits, Ideal.ieee]

/-- The f32 pattern of `+∞`, the accumulator a minimum starts from, is the top of the extended reals. -/
theorem ofBits_pos_inf_f32 : FloatOps.ofBits (F := Ideal) .f32 0x7F800000#32 = (⊤ : EReal) := by
  show Ideal.ofBits .f32 0x7F800000#32 = ⊤
  simp [Ideal.ofBits, Ideal.ieee]

end Idealize.ShloMosaic.Ideal
-- ==== Proof.BlockValue.lean ====
/-
  What the kernel body leaves at one element of its output block, at the ideal values.

  At block row `r` and feature `f` the body holds `x = X(r, f)`, the row maximum `M = max_k A(r, k)` taken
  from `-∞`, and the row minimum `μ = min_k A(r, k)` taken from `+∞`, and stores `x * M` where `0 ≤ x`
  and `x * μ` elsewhere. By the signed-factor law that is the largest of the products `x * A(r, k)`
  over the row's 2048 columns: the masked max-pool of the row, with no assumption on `A`.
-/
import proofs.«122740_j47047071760693_1_alg».proof.Proof.Gen.KernelIdeal.Value
import proofs.«122740_j47047071760693_1_alg».proof.Proof.SignedFactor
import proofs.«122740_j47047071760693_1_alg».proof.Proof.LibRowExtrema
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- Row `r` of the adjacency block with column `k` put back on the reduced axis is the element (r, k). -/
theorem lift_row (r : Fin 256) (k : Fin 2048) :
    reduces_S256x2048_S256.lift (ix1 r) k = ix2 r k := by
  funext a
  apply Fin.ext
  match a with
  | ⟨0, _⟩ => rfl
  | ⟨1, _⟩ => rfl

/-- The row maximum the body takes: the largest entry of row `r`, from `⊥`. -/
theorem row_max (A : FVec Ideal S256x2048 .f32) (r : Fin 256) :
    multiReduction .maximumf [1] S256 A 0xFF800000#32 reduces_S256x2048_S256 (.inl rfl) rfl (ix1 r)
      = (Finset.univ : Finset (Fin 2048)).fold max ⊥ (fun k => A (ix2 r k)) := by
  refine (Ideal.multiReduction_maximumf_single A 0xFF800000#32 reduces_S256x2048_S256 (.inl rfl) rfl (ix1 r)).trans ?_
  show (Finset.univ : Finset (Fin 2048)).fold max (FloatOps.ofBits (F := Ideal) .f32 0xFF800000#32)
      (fun k => A (reduces_S256x2048_S256.lift (ix1 r) k)) = _
  rw [Ideal.ofBits_neg_inf_f32]
  exact congrArg (fun g : Fin 2048 → EReal => (Finset.univ : Finset (Fin 2048)).fold max ⊥ g)
    (funext fun k => congrArg A (lift_row r k))

/-- The row minimum the body takes: the smallest entry of row `r`, from `⊤`. -/
theorem row_min (A : FVec Ideal S256x2048 .f32) (r : Fin 256) :
    multiReduction .minimumf [1] S256 A 0x7F800000#32 reduces_S256x2048_S256 (.inl rfl) rfl (ix1 r)
      = (Finset.univ : Finset (Fin 2048)).fold min ⊤ (fun k => A (ix2 r k)) := by
  refine (Ideal.multiReduction_minimumf_single A 0x7F800000#32 reduces_S256x2048_S256 (.inl rfl) rfl (ix1 r)).trans ?_
  show (Finset.univ : Finset (Fin 2048)).fold min (FloatOps.ofBits (F := Ideal) .f32 0x7F800000#32)
      (fun k => A (reduces_S256x2048_S256.lift (ix1 r) k)) = _
  rw [Ideal.ofBits_pos_inf_f32]
  exact congrArg (fun g : Fin 2048 → EReal => (Finset.univ : Finset (Fin 2048)).fold min ⊤ g)
    (funext fun k => congrArg A (lift_row r k))

/-- The body's comparison with the zero word and its select, at the ideal values: the first value where
    `0 ≤ x`, the second elsewhere. -/
theorem select_nonneg (x a b : EReal) :
    Scalar.select (FloatOps.cmpf (F := Ideal) (φ := .f32) .oge x (Scalar.ofBits .f32 0x00000000#32)) a b
      = if 0 ≤ x then a else b := by
  show Scalar.select (Ideal.cmp .oge x (Ideal.ofBits .f32 0x00000000#32)) a b = _
  rw [Ideal.ofBits_zero_f32]
  by_cases h : (0 : EReal) ≤ x
  · have hc : Ideal.cmp .oge x 0 = 1#1 := by simp [Ideal.cmp, h]
    rw [if_pos h, hc]
    exact select_one _ _
  · have hc : Ideal.cmp .oge x 0 = 0#1 := by simp [Ideal.cmp, h]
    rw [if_neg h, hc]
    exact select_zero _ _

/-- THE BLOCK, ELEMENT BY ELEMENT: what the body leaves at (r, f) of its output block is the largest of the
    products of `X(r, f)` with the entries of row `r` of the adjacency block. -/
theorem block_apply (X : FVec Ideal S256x64 .f32) (A : FVec Ideal S256x2048 .f32) (r : Fin 256) (f : Fin 64) :
    Value.E2 (F := Ideal) X A (ix2 r f)
      = (Finset.univ : Finset (Fin 2048)).fold max ⊥ (fun k => X (ix2 r f) * A (ix2 r k)) := by
  have e0 : Value.ix2_0 (ix2 r f) = ix2 r f := by
    funext a; match a with | ⟨0, _⟩ => rfl | ⟨1, _⟩ => rfl
  have e1 : Value.ix2_1 (ix2 r f) = ix2 r f := by
    funext a; match a with | ⟨0, _⟩ => rfl | ⟨1, _⟩ => rfl
  have e2 : Value.ix2_2 (ix2 r f) = ix1 r := by
    funext a; match a with | ⟨0, _⟩ => rfl
  have e3 : Value.ix2_3 (ix2 r f) = ix2 r f := by
    funext a; match a with | ⟨0, _⟩ => rfl | ⟨1, _⟩ => rfl
  have e4 : Value.ix2_4 (ix2 r f) = ix1 r := by
    funext a; match a with | ⟨0, _⟩ => rfl
  show Scalar.select (FloatOps.cmpf (F := Ideal) (φ := .f32) .oge (X (Value.ix2_0 (ix2 r f))) (Scalar.ofBits .f32 0x00000000#32))
      (X (Value.ix2_1 (ix2 r f)) * (multiReduction .maximumf [1] S256 A 0xFF800000#32 reduces_S256x2048_S256 (.inl rfl) rfl) (Value.ix2_2 (ix2 r f)))
      (X (Value.ix2_3 (ix2 r f)) * (multiReduction .minimumf [1] S256 A 0x7F800000#32 reduces_S256x2048_S256 (.inl rfl) rfl) (Value.ix2_4 (ix2 r f)))
    = _
  rw [e0, e1, e2, e3, e4, row_max, row_min, select_nonneg]
  exact Cert.SignedFactor.signed_factor_max Finset.univ ⟨0, Finset.mem_univ _⟩ (X (ix2 r f)) (fun k => A (ix2 r k))

end Cert.KernelIdeal.BlockValue

end
-- ==== Proof.Pooled.lean ====
/-
  The specification: masked max-pooling over neighbours, as one function of the two argument arrays.

  For node `p` and feature `q`, `pooled X A (p, q)` is the largest of the products `X(p, q) * A(p, k)`
  over the 2048 neighbours `k`, taken from `⊥`. Both programs end holding this array: the reference
  by forming the products and reducing them, the kernel by multiplying `X(p, q)` with the largest or
  the smallest entry of row `p` of `A` according to the sign of `X(p, q)`.
-/
import Idealize.ShloMosaic.Lib.ValueIdx

noncomputable section

namespace Cert.MaxPool

open Idealize.ShloMosaic Idealize.ShloMosaic.ValueIdx

/-- The pooled array: at index `i`, the largest product of `X i` with an entry of `A`'s row `i 0`. -/
def pooled (X : (⟨2, ![2048, 64]⟩ : Shape).Idx → EReal) (A : (⟨2, ![2048, 2048]⟩ : Shape).Idx → EReal) :
    (⟨2, ![2048, 64]⟩ : Shape).Idx → EReal :=
  fun i => (Finset.univ : Finset (Fin 2048)).fold max ⊥
    (fun k => X i * A (ix2 (⟨(i 0).val, idx2_lt0 i⟩ : Fin 2048) k))

/-- At node `p` and feature `q`: the largest of `X(p, q) * A(p, k)` over `k`. -/
theorem pooled_apply (X : (⟨2, ![2048, 64]⟩ : Shape).Idx → EReal) (A : (⟨2, ![2048, 2048]⟩ : Shape).Idx → EReal)
    (p : Fin 2048) (q : Fin 64) :
    pooled X A (ix2 p q) = (Finset.univ : Finset (Fin 2048)).fold max ⊥ (fun k => X (ix2 p q) * A (ix2 p k)) :=
  rfl

end Cert.MaxPool

end
-- ==== Proof.KernelRun.lean ====
/-
  From the kernel's blocks to its result array, and the kernel's run read at that array.

  The grid has 8 points. Point `t` stages rows `256 t … 256 t + 255` of the features `X` (all 64
  columns), the same rows of the adjacency `A` (all 2048 columns), and writes back the same rows of
  the result. So element (r, f) of the block point `t` writes back is the pooled value at array row
  `256 t + r`: the features block at (r, f) is `X(256 t + r, f)` and row `r` of the adjacency block is
  row `256 t + r` of `A`. Every array row `i` lies in the block of point `i / 256`, so the blocks
  cover the array and the array ends holding `pooled X A`.
-/
import proofs.«122740_j47047071760693_1_alg».proof.Proof.Gen.KernelIdeal.Value
import proofs.«122740_j47047071760693_1_alg».proof.Proof.BlockValue
import proofs.«122740_j47047071760693_1_alg».proof.Proof.Pooled
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.MaxPool
open Idealize.ShloMosaic.Pipeline (Dat)

variable (m : (ℓ : Loc nD τ sig) → Buf (Elt Ideal) ℓ) (ρ : Dev nD → PrngReg)

/-- The body's loads and its store start at the origin of their buffers. -/
theorem origin_zero : (![0, 0] : Fin 2 → Nat) = fun _ => 0 := funext fun a => by fin_cases a <;> rfl

/-- One element of a written block is one element of the pooled array, given where the block's loads
    come from: the features block at `y` is `X` at `i`, and the adjacency block's row `y 0` is `A`'s row `i 0`. -/
theorem block_is_pooled (X0 : FVec Ideal S256x64 .f32) (A0 : FVec Ideal S256x2048 .f32)
    (X : FVec Ideal S2048x64 .f32) (A : FVec Ideal S2048x2048 .f32)
    (y : S256x64.Idx) (i : S2048x64.Idx) (hX : X0 y = X i)
    (hA : ∀ k : Fin 2048, A0 (ix2 (⟨(y 0).val, idx2_lt0 y⟩ : Fin 256) k)
      = A (ix2 (⟨(i 0).val, idx2_lt0 i⟩ : Fin 2048) k)) :
    View.canon ([⟨r0_1, k0_pay1 (F := Ideal) A0 X0⟩] : List (View.Piece (Elt Ideal) S256x64 .f32)) y = pooled X A i := by
  obtain ⟨r, f, rfl⟩ : ∃ (r : Fin 256) (f : Fin 64), y = ix2 r f := ⟨y 0, y 1, eq_ix2 y⟩
  refine (Value.canon2_eq (F := Ideal) X0 A0 (ix2 r f)).trans ?_
  refine (BlockValue.block_apply X0 A0 r f).trans ?_
  show _ = (Finset.univ : Finset (Fin 2048)).fold max ⊥
    (fun k => X i * A (ix2 (⟨(i 0).val, idx2_lt0 i⟩ : Fin 2048) k))
  rw [hX]
  exact congrArg (fun g : Fin 2048 → EReal => (Finset.univ : Finset (Fin 2048)).fold max ⊥ g)
    (funext fun k => congrArg (fun z => X i * z) (hA k))

/-- The printed index maps, decided over the 8 points: the two inputs move with the output along the
    rows, no window moves along its columns, and the output's row-block index stays below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (0 : Fin 2) ≤ 7 ∧ win0_2.index t (1 : Fin 2) = 0 :=
  (by decide +kernel : ∀ t : Fin grid0.N, _)

/-- Every row block of the result is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- WHAT POINT `t` WRITES BACK is block `t` of the pooled array of the arguments as the region finds them. -/
theorem flushed_eq (c : Dev nD) (t : Fin cfg0.N) :
    (dats m 0 c).flushed 2 t
      = ((cfg0.win 2).blk t).view.read (Elt Ideal) (pooled (V m c main_arg0) (V m c main_arg1)) := by
  rw [Value.flushed2]
  unfold out0_2
  simp only [View.ld_unit_zero (S := S256x2048) origin_zero, View.ld_unit_zero (S := S256x64) origin_zero]
  obtain ⟨e0, e1, e2, e3, e4, e5⟩ := idx_facts t
  funext j
  show View.canon ([⟨r0_1, k0_pay1 (F := Ideal) (iblk m c 1 t) (iblk m c 0 t)⟩] : List (View.Piece (Elt Ideal) S256x64 .f32)) j
    = pooled (V m c main_arg0) (V m c main_arg1) (((cfg0.win 2).blk t).view.emb j)
  refine block_is_pooled (iblk m c 0 t) (iblk m c 1 t) (V m c main_arg0) (V m c main_arg1) j
    (((cfg0.win 2).blk t).view.emb j) ?_ ?_
  · show V m c main_arg0 (((cfg0.win 0).blk t).view.emb j) = V m c main_arg0 (((cfg0.win 2).blk t).view.emb j)
    refine congrArg (V m c main_arg0) ?_
    funext a; apply Fin.ext
    match a with
    | ⟨0, _⟩ =>
      show win0_0.index t (0 : Fin 2) * 256 + 1 * (j 0).val = win0_2.index t (0 : Fin 2) * 256 + 1 * (j 0).val
      omega
    | ⟨1, _⟩ =>
      show win0_0.index t (1 : Fin 2) * 64 + 1 * (j 1).val = win0_2.index t (1 : Fin 2) * 64 + 1 * (j 1).val
      omega
  · intro k
    show V m c main_arg1 (((cfg0.win 1).blk t).view.emb (ix2 (⟨(j 0).val, idx2_lt0 j⟩ : Fin 256) k))
      = V m c main_arg1 (ix2 (⟨((((cfg0.win 2).blk t).view.emb j) 0).val, idx2_lt0 (((cfg0.win 2).blk t).view.emb j)⟩ : Fin 2048) k)
    refine congrArg (V m c main_arg1) ?_
    funext a; apply Fin.ext
    match a with
    | ⟨0, _⟩ =>
      show win0_1.index t (0 : Fin 2) * 256 + 1 * (j 0).val = win0_2.index t (0 : Fin 2) * 256 + 1 * (j 0).val
      omega
    | ⟨1, _⟩ =>
      show win0_1.index t (1 : Fin 2) * 2048 + 1 * k.val = k.val
      omega

/-- An index of the array is in point `t`'s block iff each coordinate is in the block's range on its axis. -/
theorem mem_blk (t : Fin cfg0.N) (i : S2048x64.Idx) :
    i ∈ ((cfg0.win 2).blk t).view.set ↔ ∀ a : Fin 2, win0_2.index t a * S256x64.size a ≤ (i a).val
      ∧ (i a).val < win0_2.index t a * S256x64.size a + S256x64.size a := by
  show i ∈ ((View.whole main_v0).slice (win0_2.rect t)).set ↔ _
  rw [View.set_slice_whole, Rect.mem_set_unit]
  exact Iff.rfl

/-- THE BLOCKS COVER THE ARRAY: row `i 0` lies in the block of the point whose row-block index is `i 0 / 256`. -/
theorem covered (i : S2048x64.Idx) :
    ∃ t : Fin cfg0.N, (cfg0.win 2).flush t = true ∧ i ∈ ((cfg0.win 2).blk t).view.set := by
  have hi0 : (i 0).val < 2048 := (i 0).isLt
  have hi1 : (i 1).val < 64 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 64 ≤ (i 1).val ∧ (i 1).val < win0_2.index t (1 : Fin 2) * 64 + 64
    omega

/-- THE ARRAY after the run: the pooled array of the argument arrays. -/
theorem final (c : Dev nD) :
    (dats m 0 c).arrAt 2 cfg0.N
      = pooled (m ((c : Thread nD τ).loc main_arg0)) (m ((c : Thread nD τ).loc main_arg1)) :=
  (dats m 0 c).arrAt_eq_of_cover 2 (pooled (V m c main_arg0) (V m c main_arg1))
    (fun t _ => flushed_eq m c t) covered

/-- The kernel's run, read: every weakly fair execution ends with the result array at the pooled array of
    the arguments, the arguments unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceValue.lean ====
/-
  What the reference computes at one element of its result, at the ideal values.

  The reference spreads `X` along a new middle axis and `A` along a new last axis, multiplies the two
  [2048, 2048, 64] arrays element by element, and takes the maximum over the middle axis from `-∞`.
  At (p, q) that is the largest of the products `X(p, q) * A(p, k)` over the 2048 neighbours `k`:
  the product array at (p, k, q) reads `X` at (p, q) and `A` at (p, k), and putting `k` back on the
  reduced axis of the result index (p, q) gives (p, k, q).
-/
import proofs.«122740_j47047071760693_1_alg».proof.Proof.Gen.ReferenceIdeal.Read
import proofs.«122740_j47047071760693_1_alg».proof.Proof.LibRowExtrema
import proofs.«122740_j47047071760693_1_alg».proof.Proof.Pooled
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The reduction's shape fact in the form that names the inserted index: the middle axis of
    [2048, 2048, 64] is dropped. -/
theorem reduces_mid : S2048x2048x64.Reduces [1] S2048x64 := by decide

/-- The result index (p, q) with neighbour `k` put back on the middle axis is (p, k, q). -/
theorem lift_mid (p : Fin 2048) (q : Fin 64) (k : Fin 2048) :
    reduces_mid.lift (ix2 p q) k = ix3 p k q := by
  funext a
  apply Fin.ext
  match a with
  | ⟨0, _⟩ => rfl
  | ⟨1, _⟩ => rfl
  | ⟨2, _⟩ => rfl

/-- The product array at (p, k, q): the feature `X(p, q)` times the adjacency entry `A(p, k)`. -/
theorem product_apply (X : FVec Ideal S2048x64 .f32) (A : FVec Ideal S2048x2048 .f32)
    (p k : Fin 2048) (q : Fin 64) :
    Read.val_main_v4 (F := Ideal) X A (ix3 p k q) = X (ix2 p q) * A (ix2 p k) := by
  have ex : Read.idx_main_v0 (Read.idx_main_v2 (ix3 p k q)) = ix2 p q := by
    funext a; apply Fin.ext
    match a with
    | ⟨0, _⟩ => rfl
    | ⟨1, _⟩ => rfl
  have ea : Read.idx_main_v1 (Read.idx_main_v3 (ix3 p k q)) = ix2 p k := by
    funext a; apply Fin.ext
    match a with
    | ⟨0, _⟩ => rfl
    | ⟨1, _⟩ => rfl
  rw [Read.val_main_v4_apply, Read.val_main_v2_apply, Read.val_main_v0_apply, Read.val_main_v3_apply,
    Read.val_main_v1_apply, ex, ea]
  rfl

/-- THE REFERENCE, ELEMENT BY ELEMENT: its result at (p, q) is the largest of the products of `X(p, q)`
    with the entries of row `p` of the adjacency, taken from `⊥`. -/
theorem reference_apply (X : FVec Ideal S2048x64 .f32) (A : FVec Ideal S2048x2048 .f32)
    (p : Fin 2048) (q : Fin 64) :
    Read.val_main_v5 (F := Ideal) X A (ix2 p q)
      = (Finset.univ : Finset (Fin 2048)).fold max ⊥ (fun k => X (ix2 p q) * A (ix2 p k)) := by
  unfold Read.val_main_v5
  refine (Host.reduce_eq_fold_single (FloatOps.maximumf (F := Ideal) (φ := .f32)) (Read.val_main_v4 (F := Ideal) X A)
    (Read.val_main_cst (F := Ideal)) reducesTo_S2048x2048x64_S2048x64_d1 reduces_mid h_S_ (ix2 p q)).trans ?_
  show (Finset.univ : Finset (Fin 2048)).fold max (FloatOps.ofBits (F := Ideal) .f32 0xFF800000#32)
      (fun k => Read.val_main_v4 (F := Ideal) X A (reduces_mid.lift (ix2 p q) k)) = _
  rw [Ideal.ofBits_neg_inf_f32]
  exact congrArg (fun g : Fin 2048 → EReal => (Finset.univ : Finset (Fin 2048)).fold max ⊥ g)
    (funext fun k => (congrArg (Read.val_main_v4 (F := Ideal) X A) (lift_mid p q k)).trans (product_apply X A p k q))

/-- THE REFERENCE'S RESULT is the pooled array of its arguments. -/
theorem reference_eq (X : FVec Ideal S2048x64 .f32) (A : FVec Ideal S2048x2048 .f32) :
    Read.val_main_v5 (F := Ideal) X A = Cert.MaxPool.pooled X A := by
  funext i
  obtain ⟨p, q, rfl⟩ : ∃ (p : Fin 2048) (q : Fin 64), i = ix2 p q := ⟨i 0, i 1, eq_ix2 i⟩
  rw [reference_apply, Cert.MaxPool.pooled_apply]

end Cert.ReferenceIdeal.RefValue

end
-- ==== Proof.lean ====
/-
  The certificate of the masked max-pool kernel against its reference, over the extended reals.

  Both programs take features `X : [2048, 64]` and an adjacency `A : [2048, 2048]`. The reference forms
  `X(p, q) * A(p, k)` for every neighbour `k` and takes the maximum over `k`. The kernel never forms
  the products: for each row it takes the largest and the smallest entry of `A`'s row and multiplies
  `X(p, q)` by the largest where `0 ≤ X(p, q)` and by the smallest elsewhere. The two agree for EVERY
  adjacency, zero-one or not, because multiplying by a nonnegative factor keeps the order and
  multiplying by a negative one reverses it (Proof/SignedFactor.lean); the maximum runs over 2048
  neighbours, so it is never the empty one, which is what the factor zero needs. No finiteness of the
  inputs is used.

  The kernel's side: what a grid point writes back is the pooled array's block (Proof/BlockValue.lean
  for one element of a block, Proof/KernelRun.lean for the blocks, their cover of the array and the run).
  The reference's side: its run's result read element by element (Proof/ReferenceValue.lean). Both end
  at `Cert.MaxPool.pooled` of the arguments (Proof/Pooled.lean). The three frames are the generated
  ones; the idealization rewrote nothing, so `preserves` is `True`.
-/
import proofs.«122740_j47047071760693_1_alg».proof.Defs
import proofs.«122740_j47047071760693_1_alg».proof.Proof.Gen.Kernel
import proofs.«122740_j47047071760693_1_alg».proof.Proof.Gen.Kernel.Skeleton
import proofs.«122740_j47047071760693_1_alg».proof.Proof.Gen.Kernel.Launch
import proofs.«122740_j47047071760693_1_alg».proof.Proof.Gen.Kernel.Points
import proofs.«122740_j47047071760693_1_alg».proof.Proof.Gen.Kernel.Frame
import proofs.«122740_j47047071760693_1_alg».proof.Proof.Gen.KernelIdeal
import proofs.«122740_j47047071760693_1_alg».proof.Proof.Gen.KernelIdeal.Skeleton
import proofs.«122740_j47047071760693_1_alg».proof.Proof.Gen.KernelIdeal.Launch
import proofs.«122740_j47047071760693_1_alg».proof.Proof.Gen.KernelIdeal.Points
import proofs.«122740_j47047071760693_1_alg».proof.Proof.Gen.KernelIdeal.Frame
import proofs.«122740_j47047071760693_1_alg».proof.Proof.Gen.ReferenceIdeal
import proofs.«122740_j47047071760693_1_alg».proof.Proof.Gen.Pre_finite_inputs
import proofs.«122740_j47047071760693_1_alg».proof.Proof.Gen.KernelIdeal.Value
import proofs.«122740_j47047071760693_1_alg».proof.Proof.Gen.ReferenceIdeal.Run
import proofs.«122740_j47047071760693_1_alg».proof.Proof.Gen.ReferenceIdeal.Read
import proofs.«122740_j47047071760693_1_alg».proof.Proof.KernelRun
import proofs.«122740_j47047071760693_1_alg».proof.Proof.ReferenceValue
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference has no kernel: its frame is its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on `X` and `A`, the kernel's result array and the reference's both end at the
    pooled array of `X` and `A`: the kernel's by its run read block by block, the reference's by its run
    read element by element. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
